-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S4096x1024 : Shape := ⟨2, ![4096, 1024]⟩
abbrev S4096x4096 : Shape := ⟨2, ![4096, 4096]⟩
abbrev S512x1024 : Shape := ⟨2, ![512, 1024]⟩
abbrev S256x1024 : Shape := ⟨2, ![256, 1024]⟩
abbrev S512x256 : Shape := ⟨2, ![512, 256]⟩
abbrev S1024x256 : Shape := ⟨2, ![1024, 256]⟩
abbrev S1x1024 : Shape := ⟨2, ![1, 1024]⟩
abbrev S512 : Shape := ⟨1, ![512]⟩
abbrev S512x1 : Shape := ⟨2, ![512, 1]⟩
abbrev S1x256 : Shape := ⟨2, ![1, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x4096, .f32⟩
  | .local _ .vmem, ⟨0, _⟩ => ⟨S512x1024, .f32⟩
  | .local _ .vmem, ⟨1, _⟩ => ⟨S512x1024, .f32⟩
  | .local _ .vmem, ⟨2, _⟩ => ⟨S256x1024, .f32⟩
  | .local _ .vmem, ⟨3, _⟩ => ⟨S256x1024, .f32⟩
  | .local _ .vmem, ⟨4, _⟩ => ⟨S512x256, .f32⟩
  | .local _ .vmem, ⟨5, _⟩ => ⟨S512x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S512x1024_S512x1024_0_0 : ∀ a, (![0, 0] : Fin 2 → Nat) a + S512x1024.size a ≤ S512x1024.size a
  h_S512x1024 : 0 < S512x1024.numel
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  natLt_1_32 : 1 < 32
  transposes_S256x1024_p1_0_S1024x256 : S256x1024.Transposes [1, 0] S1024x256
  reduces_S512x1024_S512 : S512x1024.Reduces [1] S512
  shapeCasts_S512_S512x1 : S512.ShapeCasts S512x1
  shapeCasts_S512x1_S512x1 : S512x1.ShapeCasts S512x1
  broadcasts_S512x1_S512x256 : S512x1.Broadcasts S512x256
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S512x1024_S1024x256_S512x256_1_0_0_1_n_n_wf : DotDims.WF S512x1024 S1024x256 S512x256 [1] [0] [0] [1] [] []
  dot_S1x1024_S1024x256_S1x256_1_0_0_1_n_n_wf : DotDims.WF S1x1024 S1024x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x4096.size a
  hwx0_2 : ∀ i : grid0.Coords, EltTy.bits .f32 = 32 ∨ (Rect.block (s := S4096x4096) S512x256.size (cc0_transform_2 i) (hinb0_2 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S1x1024_S1024x256_S1x256_1_0_0_1_n_n : DotDims S1x1024 S1024x256 S1x256 where
  lhsContracting := [1]
  rhsContracting := [0]
  lhsNonContracting := [0]
  rhsNonContracting := [1]
  lhsBatch := []
  rhsBatch := []
  wf := dot_S1x1024_S1024x256_S1x256_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S_ : Shape := ⟨0, ![]⟩
abbrev S1024x4096 : Shape := ⟨2, ![1024, 4096]⟩
abbrev S4096x4096 : Shape := ⟨2, ![4096, 4096]⟩
abbrev S4096 : Shape := ⟨1, ![4096]⟩
abbrev S4096x1 : Shape := ⟨2, ![4096, 1]⟩
abbrev S1x4096 : Shape := ⟨2, ![1, 4096]⟩

abbrev nBuf : Space → Nat
  | .hbm => 67
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .i1⟩
  | .hbm, ⟨3, _⟩ => ⟨S4096x1024, .i1⟩
  | .hbm, ⟨4, _⟩ => ⟨S_, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S1024x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S1x4096, .f32⟩
  | .hbm, ⟨28, _⟩ => ⟨S4096x4096, .f32⟩
  | .hbm, ⟨29, _⟩ => ⟨S4096x4096, .f32⟩
  | .hbm, ⟨30, _⟩ => ⟨S4096x1024, .f32⟩
  | .hbm, ⟨31, _⟩ => ⟨S1024x4096, .f32⟩
  | .hbm, ⟨32, _⟩ => ⟨S4096x4096, .f32⟩
  | .hbm, ⟨33, _⟩ => ⟨S4096x4096, .f32⟩
  | .hbm, ⟨34, _⟩ => ⟨S4096x1024, .f32⟩
  | .hbm, ⟨35, _⟩ => ⟨S1024x4096, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S1024x4096, .f32⟩
  | .hbm, ⟨51, _⟩ => ⟨S4096x4096, .f32⟩
  | .hbm, ⟨52, _⟩ => ⟨S_, .f32⟩
  | .hbm, ⟨53, _⟩ => ⟨S4096x4096, .f32⟩
  | .hbm, ⟨54, _⟩ => ⟨S4096x4096, .i1⟩
  | .hbm, ⟨55, _⟩ => ⟨S_, .f32⟩
  | .hbm, ⟨56, _⟩ => ⟨S_, .f32⟩
  | .hbm, ⟨57, _⟩ => ⟨S4096x4096, .f32⟩
  | .hbm, ⟨58, _⟩ => ⟨S4096x4096, .f32⟩
  | .hbm, ⟨59, _⟩ => ⟨S_, .f32⟩
  | .hbm, ⟨60, _⟩ => ⟨S4096x4096, .f32⟩
  | .hbm, ⟨61, _⟩ => ⟨S4096x4096, .f32⟩
  | .hbm, ⟨62, _⟩ => ⟨S4096x4096, .f32⟩
  | .hbm, ⟨63, _⟩ => ⟨S_, .f32⟩
  | .hbm, ⟨64, _⟩ => ⟨S4096x4096, .f32⟩
  | .hbm, ⟨65, _⟩ => ⟨S4096x4096, .f32⟩
  | .hbm, ⟨66, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_call0_v0 : Ref sig .tc := ⟨.hbm, 5, rfl⟩
abbrev main_call0_v1 : Ref sig .tc := ⟨.hbm, 6, rfl⟩
abbrev main_v2 : Ref sig .tc := ⟨.hbm, 7, rfl⟩
abbrev main_cst_0 : Ref sig .tc := ⟨.hbm, 8, rfl⟩
abbrev main_call1_v0 : Ref sig .tc := ⟨.hbm, 9, rfl⟩
abbrev main_call1_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_call2_v0 : Ref sig .tc := ⟨.hbm, 39, rfl⟩
abbrev main_call2_v1 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_call3_v0 : Ref sig .tc := ⟨.hbm, 56, rfl⟩
abbrev main_call3_v1 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]

class Facts₀ : Prop where
  bcast_S_S4096x1024 : S_.BroadcastsInDim S4096x1024 (![] : Fin 0 → Fin S4096x1024.rank)
  transposes_S4096x1024_S1024x4096_1_0 : S4096x1024.Transposes [1, 0] S1024x4096
  bcast_S_S4096x4096 : S_.BroadcastsInDim S4096x4096 (![] : Fin 0 → Fin S4096x4096.rank)
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  transposes_S4096x1_S1x4096_1_0 : S4096x1.Transposes [1, 0] S1x4096
  bcast_S1x4096_S4096x4096_0_1 : S1x4096.BroadcastsInDim S4096x4096 (![0, 1] : Fin 2 → Fin S4096x4096.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.Spec.lean ====
/-
  Pairwise distances between the rows of X and the rows of Y (4096 rows of 1024 entries each) in which an entry that is
  "missing" — unequal to itself — does not take part: the squared distance is summed over the coordinates present in both
  rows, rescaled by 1024 over the number of such coordinates, and its square root taken.

  Stated for two rows x, y : Fin 1024 → EReal.  With  f(a) = a where a is present and 0 where it is missing,
  μ(a) = 1 where a is missing and 0 where it is present:

      ‖f x‖² + ‖f y‖² − 2 ⟨f x, f y⟩ − Σ f(x)² μ(y) − Σ μ(x) f(y)²      (clamped below at 0)

  is the sum of (x − y)² over the coordinates present in both rows, the count of these is Σ (1 − μ x)(1 − μ y), and the
  entry is  sqrt (that sum / max(1, count) · 1024),  a fixed word standing in where the count is zero.
  On the extended reals every value equals itself, so μ vanishes; nothing below needs that.
-/
import Idealize.ShloMosaic.PureOps.Ideal.Laws
import Idealize.ShloMosaic.Lib.ValueIdx

noncomputable section

namespace Cert.NanDist

open Idealize.ShloMosaic Idealize.ShloMosaic.ValueIdx

/-- μ: one where the value differs from itself, zero elsewhere. -/
def miss (a : EReal) : EReal := (((Ideal.cmp .une a a).toNat : ℝ) : EReal)

/-- f: the value, or zero where it differs from itself. -/
def fill (a : EReal) : EReal := Scalar.select (Ideal.cmp .une a a) (0 : EReal) a

/-- The distance between two rows over the coordinates present in both. -/
def rowDist (x y : Fin 1024 → EReal) : EReal :=
  let cross := ∑ k : Fin 1024, fill (x k) * fill (y k)
  let xx := ∑ k : Fin 1024, fill (x k) * fill (x k)
  let yy := ∑ k : Fin 1024, fill (y k) * fill (y k)
  let xmy := ∑ k : Fin 1024, fill (x k) * fill (x k) * miss (y k)
  let mxy := ∑ k : Fin 1024, miss (x k) * (fill (y k) * fill (y k))
  let cnt := ∑ k : Fin 1024, (1 - miss (x k)) * (1 - miss (y k))
  let d := max (Ideal.ofBits .f32 0xC0000000#32 * cross + xx + yy - xmy - mxy) 0
  Ideal.sqrt (Ideal.div (Scalar.select (Ideal.cmp .oeq cnt 0) (Ideal.ofBits .f32 0x7FC00000#32) d) (max 1 cnt)
    * Ideal.ofBits .f32 0x44800000#32)

/-- The whole result: entry (i, j) is the distance between row i of X and row j of Y. -/
def dist (X Y : (⟨2, ![4096, 1024]⟩ : Shape).Idx → EReal) : (⟨2, ![4096, 4096]⟩ : Shape).Idx → EReal :=
  fun ij => rowDist (fun k => X (ix2 (ij 0) k)) (fun k => Y (ix2 (ij 1) k))

/-! ## The two spellings of μ and the two spellings of one -/

/-- "ordered and unequal" and "unordered or unequal" are one comparison on the extended reals. -/
theorem cmp_one_eq_une (a b : EReal) : Ideal.cmp .one a b = Ideal.cmp .une a b := rfl

/-- A one-bit word widened to 32 bits and read as a signed integer is the bit. -/
theorem toInt_setWidth_bit (b : BitVec 1) : ((b.setWidth 32).toInt : ℝ) = (b.toNat : ℝ) := by
  rcases BitVec.eq_zero_or_eq_one b with rfl | rfl <;> norm_num [BitVec.toInt]

/-- The sixteen-bit and the thirty-two-bit words for one both denote 1; the zero word denotes 0. -/
theorem one_bf16 : Ideal.ofBits .bf16 0x3F80#16 = 1 := IdealRules.sign_bit.ideal_onePat .bf16
theorem one_f32 : Ideal.ofBits .f32 0x3F800000#32 = 1 := IdealRules.sign_bit.ideal_onePat .f32

end Cert.NanDist

end
-- ==== Proof.LibPlainMatmul.lean ====
/-
  A general fact about the ideal reading of a matrix product, independent of any program: a kernel's matrix product of an
  m×k by a k×n matrix (no batch axis; the left operand's columns contracted with the right operand's rows) into a zero
  accumulator, read at the entry (a, b), is the textbook sum  Σ_c A(a, c) · B(c, b)  on the extended reals.
  (The host's `dot_general` of the same shape has this reading in the library already; this is its twin for the kernel's
  accumulate-into-zero form.)
-/
import Idealize.ShloMosaic.PureOps.Ideal.Laws
import Idealize.ShloMosaic.Lib.ValueIdx

noncomputable section

namespace Idealize.ShloMosaic.LibPlainMatmul

open Idealize.ShloMosaic Idealize.ShloMosaic.ValueIdx

/-- The plain product of an m×k by a k×n matrix accumulated into the f32 zero splat, at the ideal values and at the
    entry (a, b): the sum over the contracted coordinate c of A(a, c) · B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (⟨2, ![m, n]⟩ : Shape) .f32 0x00000000#32) (ix2 a b)
      = ∑ c : Fin k, A (ix2 a c) * B (ix2 c b) := by
  show FloatOps.matmul (DotDims.plain m k n) prec A B (constant (⟨2, ![m, n]⟩ : Shape) .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c): its row is the output's row, its column the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right operand at (c, b): its row the contracted coordinate, its column the output's column
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Idealize.ShloMosaic.LibPlainMatmul

end
-- ==== Proof.LibLayoutCols.lean ====
/-
  General facts about layout operations read at an index, independent of any program, in the style of the library's
  own small-shape lemmas: the "keepdims" forms a row-wise reduction meets (a vector of row results made a column, the
  column copied across the row), a middle or leading unit axis added and then copied, a vector copied over two leading
  axes, and the cast that merges the two leading axes of a rank-3 array into one row axis. Each says which single entry
  of the operand an entry of the result is.
-/
import Idealize.ShloMosaic.Lib.Pipeline.Value
import Idealize.ShloMosaic.Lib.ValueIdx

noncomputable section

namespace Idealize.ShloMosaic.LibLayoutCols

open Idealize.ShloMosaic Idealize.ShloMosaic.ValueIdx

variable {α : Type}

/-! ## A vector as a column, and a column across its rows -/

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a vector of per-row values made a column and copied across the row reads, at `(p, c)`, the value of row `p`. -/
theorem broadcastTo_shapeCast_col_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-! ## A unit axis added in the middle or in front of a matrix, then copied -/

/-- An `[a, c]` array cast to `[a, 1, c]` reads, at `(r, u, j)`, the operand at `(r, j)`. -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (j : Fin c) :
    shapeCast ⟨3, ![a, 1, c]⟩ x h (ix3 r u j) = x (ix2 r j) :=
  shapeCast_apply x h _ _ (by
    have hu : u.val = 0 := by omega
    rw [Shape.rowMajor_val_three, Shape.rowMajor_val_two]
    show r.val * c + j.val = (r.val * 1 + u.val) * c + j.val
    rw [hu, Nat.mul_one, Nat.add_zero])

/-- An `[a, 1, c]` array broadcast to `[a, b, c]` reads, at `(r, u, j)`, the operand at `(r, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (r : Fin a) (u : Fin b) (j : Fin c) :
    broadcastTo ⟨3, ![a, b, c]⟩ v h (ix3 r u j) = v (ix3 r (0 : Fin 1) j) := by
  refine broadcastTo_apply v h (ix3 r u j) (ix3 r (0 : Fin 1) j) fun ax => ?_
  match ax with
  | ⟨0, _⟩ =>
    show r.val = if a = 1 then 0 else r.val
    split
    · have := r.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(r, u, j)`, the operand at `(0, u, j)`. -/
theorem broadcastTo_1bc_abc_apply {a b c : ℕ} (v : (⟨3, ![1, b, c]⟩ : Shape).Idx → α)
    (h : (⟨3, ![1, b, c]⟩ : Shape).Broadcasts ⟨3, ![a, b, c]⟩) (r : Fin a) (u : Fin b) (j : Fin c) :
    broadcastTo ⟨3, ![a, b, c]⟩ v h (ix3 r u j) = v (ix3 (0 : Fin 1) u j) := by
  refine broadcastTo_apply v h (ix3 r u j) (ix3 (0 : Fin 1) u j) fun ax => ?_
  match ax with
  | ⟨0, _⟩ => rfl
  | ⟨1, _⟩ =>
    show u.val = if b = 1 then 0 else u.val
    split
    · have := u.isLt; omega
    · rfl
  | ⟨2, _⟩ =>
    show j.val = if c = 1 then 0 else j.val
    split
    · have := j.isLt; omega
    · rfl

/-! ## A vector copied over two leading axes -/

/-- A `[c]` array cast to `[1, 1, c]` reads, at `(u, w, j)`, the operand at `j`. -/
theorem shapeCast_c_11c_apply {c : ℕ} (x : (⟨1, ![c]⟩ : Shape).Idx → α)
    (h : (⟨1, ![c]⟩ : Shape).ShapeCasts ⟨3, ![1, 1, c]⟩) (u w : Fin 1) (j : Fin c) :
    shapeCast ⟨3, ![1, 1, c]⟩ x h (ix3 u w j) = x (ix1 j) :=
  shapeCast_apply x h _ _ (by
    have hu : u.val = 0 := by omega
    have hw : w.val = 0 := by omega
    rw [Shape.rowMajor_val_three, Shape.rowMajor_val_one]
    show j.val = (u.val * 1 + w.val) * c + j.val
    simp only [hu, hw, Nat.zero_mul, Nat.add_zero, Nat.zero_add])

/-- A `[1, 1, c]` array broadcast to `[a, b, c]` reads, at `(r, u, j)`, the operand at `(0, 0, j)`. -/
theorem broadcastTo_11c_abc_apply {a b c : ℕ} (v : (⟨3, ![1, 1, c]⟩ : Shape).Idx → α)
    (h : (⟨3, ![1, 1, c]⟩ : Shape).Broadcasts ⟨3, ![a, b, c]⟩) (r : Fin a) (u : Fin b) (j : Fin c) :
    broadcastTo ⟨3, ![a, b, c]⟩ v h (ix3 r u j) = v (ix3 (0 : Fin 1) (0 : Fin 1) j) := by
  refine broadcastTo_apply v h (ix3 r u j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

/-! ## The two leading axes of a rank-3 array merged into one row axis -/

/-- An `[a, b, c]` array cast to `[n, c]` (so `n = a·b`) reads, at row `p = r·b + u` and column `j`, the operand at
    `(r, u, j)`: the row-major position is the same. -/
theorem shapeCast_abc_nc_apply {a b c n : ℕ} (x : (⟨3, ![a, b, c]⟩ : Shape).Idx → α)
    (h : (⟨3, ![a, b, c]⟩ : Shape).ShapeCasts ⟨2, ![n, c]⟩) (r : Fin a) (u : Fin b) (p : Fin n)
    (hp : p.val = r.val * b + u.val) (j : Fin c) :
    shapeCast ⟨2, ![n, c]⟩ x h (ix2 p j) = x (ix3 r u j) :=
  shapeCast_apply x h _ _ (by
    rw [Shape.rowMajor_val_three, Shape.rowMajor_val_two]
    show (r.val * b + u.val) * c + j.val = p.val * c + j.val
    rw [hp])

end Idealize.ShloMosaic.LibLayoutCols

end
-- ==== Proof.Payload.lean ====
/-
  What the kernel's body stores, read at one entry (p, q) of its 512 × 256 block, as a function of the two blocks it
  loads: P0, 512 rows of X, and P1, 256 rows of Y.  Each of the five products reads, at (p, q), a sum over the 1024
  coordinates of row p of the left factor times row q of the right factor (the right factor enters transposed); the row
  sums of squares enter through a column copied across the row, and through a row of ones times the transposed squares;
  the rest is entrywise.  Together: the entry is the row distance of row p of P0 and row q of P1.
-/
import proofs.«156769_j5634997092779_1_alg».proof.Proof.Gen.KernelIdeal.Skeleton
import proofs.«156769_j5634997092779_1_alg».proof.Proof.Spec
import proofs.«156769_j5634997092779_1_alg».proof.Proof.LibPlainMatmul
import proofs.«156769_j5634997092779_1_alg».proof.Proof.LibLayoutCols
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx Cert.NanDist
open Idealize.ShloMosaic.LibPlainMatmul Idealize.ShloMosaic.LibLayoutCols

/-! ## The entrywise pieces -/

/-- The block with its missing entries put to zero, at an index. -/
theorem filled_at {s : Shape} (P : FVec Ideal s .f32) (i : s.Idx) :
    select (cmpf .one P P) (broadcast s (Scalar.ofBits .f32 0x00000000#32)) P i = fill (P i) := by
  show Scalar.select (Ideal.cmp .one (P i) (P i)) (Ideal.ofBits .f32 0x00000000#32) (P i) = Scalar.select (Ideal.cmp .une (P i) (P i)) 0 (P i)
  rw [Ideal.ofBits_zero_f32]; rfl

/-- The missing mask as a float, at an index. -/
theorem missing_at {s : Shape} (P : FVec Ideal s .f32) (i : s.Idx) (h : 1 < 32) :
    (sitofp .f32 (extui 32 (cmpf .one P P) h) : FVec Ideal s .f32) i = miss (P i) :=
  congrArg (fun r : ℝ => (r : EReal)) (toInt_setWidth_bit (Ideal.cmp .une (P i) (P i)))

theorem pay4_at (P0 : Vec Ideal S512x1024 .f32) (i : S512x1024.Idx) : k0_pay4 P0 i = fill (P0 i) := filled_at P0 i
theorem pay5_at (P1 : Vec Ideal S256x1024 .f32) (i : S256x1024.Idx) : k0_pay5 P1 i = fill (P1 i) := filled_at P1 i
theorem pay6_at (P0 : Vec Ideal S512x1024 .f32) (i : S512x1024.Idx) : k0_pay6 P0 i = fill (P0 i) * fill (P0 i) := by
  show k0_pay4 P0 i * k0_pay4 P0 i = _
  rw [pay4_at]
theorem pay7_at (P1 : Vec Ideal S256x1024 .f32) (i : S256x1024.Idx) : k0_pay7 P1 i = fill (P1 i) * fill (P1 i) := by
  show k0_pay5 P1 i * k0_pay5 P1 i = _
  rw [pay5_at]
theorem pay8_at (P0 : Vec Ideal S512x1024 .f32) (i : S512x1024.Idx) : k0_pay8 P0 i = miss (P0 i) := missing_at P0 i _
theorem pay9_at (P1 : Vec Ideal S256x1024 .f32) (i : S256x1024.Idx) : k0_pay9 P1 i = miss (P1 i) := missing_at P1 i _

/-! ## The five products and the two row sums, at (p, q) -/

/-- ⟨f x, f y⟩ of row p of P0 and row q of P1. -/
theorem cross_at (P0 : Vec Ideal S512x1024 .f32) (P1 : Vec Ideal S256x1024 .f32) (p : Fin 512) (q : Fin 256) :
    k0_pay10 P0 P1 (ix2 p q) = ∑ k : Fin 1024, fill (P0 (ix2 p k)) * fill (P1 (ix2 q k)) := by
  unfold k0_pay10
  refine (matmul_plain_zero_apply none _ _ p q).trans ?_
  refine Finset.sum_congr rfl fun k _ => ?_
  rw [transpose_ix2_apply]
  show k0_pay4 P0 (ix2 p k) * k0_pay5 P1 (ix2 q k) = _
  rw [pay4_at, pay5_at]

/-- Σ f(x)² μ(y). -/
theorem xmy_at (P0 : Vec Ideal S512x1024 .f32) (P1 : Vec Ideal S256x1024 .f32) (p : Fin 512) (q : Fin 256) :
    k0_pay11 P0 P1 (ix2 p q) = ∑ k : Fin 1024, fill (P0 (ix2 p k)) * fill (P0 (ix2 p k)) * miss (P1 (ix2 q k)) := by
  unfold k0_pay11
  refine (matmul_plain_zero_apply none _ _ p q).trans ?_
  refine Finset.sum_congr rfl fun k _ => ?_
  rw [transpose_ix2_apply]
  show k0_pay6 P0 (ix2 p k) * k0_pay9 P1 (ix2 q k) = _
  rw [pay6_at, pay9_at]

/-- Σ μ(x) f(y)². -/
theorem mxy_at (P0 : Vec Ideal S512x1024 .f32) (P1 : Vec Ideal S256x1024 .f32) (p : Fin 512) (q : Fin 256) :
    k0_pay12 P0 P1 (ix2 p q) = ∑ k : Fin 1024, miss (P0 (ix2 p k)) * (fill (P1 (ix2 q k)) * fill (P1 (ix2 q k))) := by
  unfold k0_pay12
  refine (matmul_plain_zero_apply none _ _ p q).trans ?_
  refine Finset.sum_congr rfl fun k _ => ?_
  rw [transpose_ix2_apply]
  show k0_pay8 P0 (ix2 p k) * k0_pay7 P1 (ix2 q k) = _
  rw [pay8_at, pay7_at]

/-- The count of coordinates present in both rows. -/
theorem count_at (P0 : Vec Ideal S512x1024 .f32) (P1 : Vec Ideal S256x1024 .f32) (p : Fin 512) (q : Fin 256) :
    k0_pay13 P0 P1 (ix2 p q) = ∑ k : Fin 1024, (1 - miss (P0 (ix2 p k))) * (1 - miss (P1 (ix2 q k))) := by
  unfold k0_pay13
  refine (matmul_plain_zero_apply none _ _ p q).trans ?_
  refine Finset.sum_congr rfl fun k _ => ?_
  rw [transpose_ix2_apply]
  show (Ideal.ofBits .bf16 0x3F80#16 - k0_pay8 P0 (ix2 p k)) * (Ideal.ofBits .bf16 0x3F80#16 - k0_pay9 P1 (ix2 q k)) = _
  rw [one_bf16, pay8_at, pay9_at]

/-- ‖f x‖² of row p, made a column and copied across the block's row. -/
theorem xx_at (P0 : Vec Ideal S512x1024 .f32) (p : Fin 512) (q : Fin 256) :
    k0_pay14 P0 (ix2 p q) = ∑ k : Fin 1024, fill (P0 (ix2 p k)) * fill (P0 (ix2 p k)) := by
  unfold k0_pay14
  dsimp only
  rw [shapeCast_self]
  refine (broadcastTo_shapeCast_col_apply _ _ _ p q).trans ?_
  refine (Ideal.multiReduction_add_single (k0_pay6 P0) 0x00000000#32 _ (.inl rfl) rfl (ix1 p)).trans ?_
  refine Finset.sum_congr rfl fun k _ => ?_
  exact (congrArg (k0_pay6 P0) (funext fun d => Fin.ext (by match d with | ⟨0, _⟩ => rfl | ⟨1, _⟩ => rfl))).trans (pay6_at P0 (ix2 p k))

/-- ‖f y‖² of row q, as a row of ones times the transposed squares, copied down the block's column. -/
theorem yy_at (P1 : Vec Ideal S256x1024 .f32) (p : Fin 512) (q : Fin 256) :
    k0_pay15 P1 (ix2 p q) = ∑ k : Fin 1024, fill (P1 (ix2 q k)) * fill (P1 (ix2 q k)) := by
  unfold k0_pay15
  dsimp only
  rw [shapeCast_self]
  refine (broadcastTo_1b_ab_apply _ _ p q).trans ?_
  refine (matmul_plain_zero_apply none _ _ (0 : Fin 1) q).trans ?_
  refine Finset.sum_congr rfl fun k _ => ?_
  rw [transpose_ix2_apply]
  show Ideal.ofBits .bf16 0x3F80#16 * k0_pay7 P1 (ix2 q k) = _
  rw [one_bf16, one_mul, pay7_at]

/-! ## The stored entry -/

/-- The square root of a vector, at an index; and a scalar word read at the extended reals. -/
theorem sqrt_at {s : Shape} {φ : FTy} (v : FVec Ideal s φ) (i : s.Idx) : sqrt v i = Ideal.sqrt (v i) := rfl
theorem scalar_ofBits (φ : FTy) (b : BitVec φ.bits) : Scalar.ofBits (F := Ideal) φ b = Ideal.ofBits φ b := rfl

/-- What the body stores at (p, q): the row distance of row p of P0 and row q of P1. -/
theorem entry_at (P0 : Vec Ideal S512x1024 .f32) (P1 : Vec Ideal S256x1024 .f32) (p : Fin 512) (q : Fin 256) :
    k0_pay1 (k0_pay10 P0 P1) (k0_pay11 P0 P1) (k0_pay12 P0 P1) (k0_pay13 P0 P1) (k0_pay14 P0) (k0_pay15 P1) (k0_pay16 (F := Ideal)) (ix2 p q)
      = rowDist (fun k => P0 (ix2 p k)) (fun k => P1 (ix2 q k)) := by
  unfold k0_pay1 k0_pay16
  simp only [sqrt_at, mulf_apply, divf_apply, select_apply, cmpf_apply, maximumf_apply, subf_apply, addf_apply, broadcast_apply,
    cross_at, xmy_at, mxy_at, count_at, xx_at, yy_at, scalar_ofBits, Ideal.ofBits_zero_f32, one_f32, Ideal.cmpf_def]
  rfl

end Cert.KernelIdeal.Hand

end
-- ==== Proof.Cover.lean ====
/-
  From blocks to the array.  Grid point t = (bi, bj) of the 8 × 16 grid loads rows 512·bi … 512·bi + 511 of X and rows
  256·bj … 256·bj + 255 of Y and writes the 512 × 256 block (bi, bj) of the result.  Entry (p, q) of what it writes is the
  row distance of row 512·bi + p of X and row 256·bj + q of Y, that is, entry (512·bi + p, 256·bj + q) of the array of
  row distances: every point writes its own block of ONE array, and the 128 blocks tile the 4096 × 4096 result.
-/
import proofs.«156769_j5634997092779_1_alg».proof.Proof.Gen.KernelIdeal.Value
import proofs.«156769_j5634997092779_1_alg».proof.Proof.Payload
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Idealize.ShloMosaic.ValueIdx Cert.NanDist

variable (m : (ℓ : Loc nD τ sig) → Buf (Elt Ideal) ℓ) (ρ : Dev nD → PrngReg)

theorem hz : (![0, 0] : Fin 2 → Nat) = fun _ => 0 := funext fun a => by fin_cases a <;> rfl

/-- The two argument arrays as the region finds them, and the array of their row distances. -/
abbrev argX (c : Dev nD) : S4096x1024.Idx → EReal := V m c main_arg0
abbrev argY (c : Dev nD) : S4096x1024.Idx → EReal := V m c main_arg1

/-- The blocks a point loads, at their literal types. -/
abbrev xblk (c : Dev nD) (t : Fin cfg0.N) : Vec Ideal S512x1024 .f32 := iblk m c 0 t
abbrev yblk (c : Dev nD) (t : Fin cfg0.N) : Vec Ideal S256x1024 .f32 := iblk m c 1 t

/-- The index maps, decided over the 128 points: X's block row is the output's block row, Y's block row the output's
    block column, and neither input is cut along its 1024 coordinates. -/
theorem idx_facts : ∀ t : Fin cfg0.N, win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 15 :=
  (by decide +kernel : ∀ t : Fin grid0.N, _)

/-- Every block of the 8 × 16 tiling is some point's. -/
theorem idx_onto : ∀ (q0 : Fin 8) (q1 : Fin 16), ∃ t : Fin cfg0.N, win0_2.index t = ![q0.val, q1.val] :=
  (by decide +kernel : ∀ (q0 : Fin 8) (q1 : Fin 16), ∃ t : Fin grid0.N, win0_2.index t = ![q0.val, q1.val])

/-- Row p of the X block at point t is row 512·bi + p of X. -/
theorem xblk_at (c : Dev nD) (t : Fin cfg0.N) (p : Fin 512) (k : Fin 1024) (i : Fin 4096)
    (hi : i.val = win0_2.index t (0 : Fin 2) * 512 + p.val) : xblk m c t (ix2 p k) = argX m c (ix2 i k) := by
  obtain ⟨e0, e1, -, -, -, -⟩ := idx_facts t
  show V m c main_arg0 (((cfg0.win 0).blk t).view.emb (ix2 p k)) = V m c main_arg0 (ix2 i k)
  congr 1
  funext a; apply Fin.ext
  match a with
  | ⟨0, _⟩ => show win0_0.index t (0 : Fin 2) * 512 + 1 * p.val = i.val; omega
  | ⟨1, _⟩ => show win0_0.index t (1 : Fin 2) * 1024 + 1 * k.val = k.val; omega

/-- Row q of the Y block at point t is row 256·bj + q of Y. -/
theorem yblk_at (c : Dev nD) (t : Fin cfg0.N) (q : Fin 256) (k : Fin 1024) (j : Fin 4096)
    (hj : j.val = win0_2.index t (1 : Fin 2) * 256 + q.val) : yblk m c t (ix2 q k) = argY m c (ix2 j k) := by
  obtain ⟨-, -, e2, e3, -, -⟩ := idx_facts t
  show V m c main_arg1 (((cfg0.win 1).blk t).view.emb (ix2 q k)) = V m c main_arg1 (ix2 j k)
  congr 1
  funext a; apply Fin.ext
  match a with
  | ⟨0, _⟩ => show win0_1.index t (0 : Fin 2) * 256 + 1 * q.val = j.val; omega
  | ⟨1, _⟩ => show win0_1.index t (1 : Fin 2) * 1024 + 1 * k.val = k.val; omega

/-- WHAT POINT t WRITES BACK is block t of the array of row distances. -/
theorem flushed_eq (c : Dev nD) (t : Fin cfg0.N) :
    (dats m 0 c).flushed 2 t = ((cfg0.win 2).blk t).view.read (Elt Ideal) (dist (argX m c) (argY m c)) := by
  rw [flushed2]
  unfold out0_2
  rw [View.canon_unit_zero hz]
  simp only [View.ld_unit_zero (S := S512x1024) hz, View.ld_unit_zero (S := S256x1024) hz]
  funext y
  obtain ⟨p, q, rfl⟩ : ∃ (p : Fin 512) (q : Fin 256), y = ix2 p q := ⟨y 0, y 1, eq_ix2 y⟩
  -- the block is written back whole, and reading the array through the block is reading it at the block's place
  have hL : ∀ P : Vec Ideal S512x256 .f32, (win0 2).cut (grid0.coords t) P (ix2 p q) = P (ix2 p q) := fun _ => rfl
  refine (hL _).trans ?_
  rw [View.read_apply]
  refine (entry_at (xblk m c t) (yblk m c t) p q).trans ?_
  rw [cast_eq]
  obtain ⟨-, -, -, -, b0, b1⟩ := idx_facts t
  have hi : win0_2.index t (0 : Fin 2) * 512 + p.val < 4096 := by have := p.isLt; omega
  have hj : win0_2.index t (1 : Fin 2) * 256 + q.val < 4096 := by have := q.isLt; omega
  -- entry (p, q) of block (bi, bj) is entry (512·bi + p, 256·bj + q) of the array
  have e0 : ((View.whole main_v0).slice ((win0 2).rect t)).emb (ix2 p q) = ix2 (⟨_, hi⟩ : Fin 4096) (⟨_, hj⟩ : Fin 4096) := by
    funext a; apply Fin.ext
    match a with
    | ⟨0, _⟩ => show win0_2.index t (0 : Fin 2) * 512 + 1 * p.val = win0_2.index t (0 : Fin 2) * 512 + p.val; omega
    | ⟨1, _⟩ => show win0_2.index t (1 : Fin 2) * 256 + 1 * q.val = win0_2.index t (1 : Fin 2) * 256 + q.val; omega
  rw [e0]
  show rowDist _ _ = rowDist (fun k => argX m c (ix2 ⟨_, hi⟩ k)) (fun k => argY m c (ix2 ⟨_, hj⟩ k))
  congr 1
  · funext k; exact xblk_at m c t p k ⟨_, hi⟩ rfl
  · funext k; exact yblk_at m c t q k ⟨_, hj⟩ rfl

/-- An index of the result is in point t's block iff each coordinate is in the block's range on its axis. -/
theorem mem_blk (t : Fin cfg0.N) (i : S4096x4096.Idx) :
    i ∈ ((cfg0.win 2).blk t).view.set ↔ ∀ a : Fin 2, win0_2.index t a * S512x256.size a ≤ (i a).val ∧ (i a).val < win0_2.index t a * S512x256.size a + S512x256.size a := by
  show i ∈ ((View.whole main_v0).slice (win0_2.rect t)).set ↔ _
  rw [View.set_slice_whole, Rect.mem_set_unit]
  exact Iff.rfl

/-- The blocks tile the result: entry (r, s) lies in the block of the point with block row r / 512 and block column s / 256. -/
theorem cover (i : S4096x4096.Idx) : ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := idx_onto ⟨(i 0).val / 512, by omega⟩ ⟨(i 1).val / 256, by omega⟩
  have q0 : win0_2.index t (0 : Fin 2) = (i 0).val / 512 := congrFun ht 0
  have q1 : win0_2.index t (1 : Fin 2) = (i 1).val / 256 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 256 ≤ (i 1).val ∧ (i 1).val < win0_2.index t (1 : Fin 2) * 256 + 256; omega

/-- THE RESULT ARRAY after the run is the array of row distances of the two arguments. -/
theorem final (c : Dev nD) : (dats m 0 c).arrAt 2 cfg0.N = dist (argX m c) (argY m c) :=
  (dats m 0 c).arrAt_eq_of_cover 2 (dist (argX m c) (argY m c)) (fun t _ => flushed_eq m c t) cover

/-- The kernel's run, read: the result at the row distances of the arguments, the arguments unchanged. -/
theorem run : θ_run defs (onTc (τ := τ) (main (F := Ideal))) ⟨m, fun _ => 0, ρ⟩ fun r => ∀ c : Dev nD,
      r.2.mem ((c : Thread nD τ).loc main_v0) = dist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Hand

end
-- ==== Proof.RefValue.lean ====
/-
  The reference's result, read at an entry (a, b): each of its operations at an index, chained.  The entrywise stages
  first (the filled entry f, its square, the missing indicator μ, 1 − μ), then the six sums over the 1024 coordinates
  that the four products and the two row sums are, then the closing entrywise chain, which is the row distance of row a of
  X and row b of Y.
-/
import proofs.«156769_j5634997092779_1_alg».proof.Proof.RefRead
import proofs.«156769_j5634997092779_1_alg».proof.Proof.Spec

noncomputable section

namespace Cert.ReferenceIdeal.Hand

open Cert.ReferenceIdeal Cert.ReferenceIdeal.ReadP Idealize.ShloMosaic Idealize.ShloMosaic.ValueIdx Cert.NanDist

/-- An argument array at the extended reals. -/
abbrev Arr : Type := (⟨S4096x1024, .f32⟩ : BufTy).Contents (Elt Ideal)

/-! ## Entrywise stages of one argument -/

theorem filledX_at (X : Arr) (i : S4096x1024.Idx) : val_main_v2 (F := Ideal) X i = fill (X i) := by
  rw [val_main_v2_apply, val_main_v0_apply, val_main_call0_v1_apply, val_main_call0_v0_apply, val_main_cst_apply]
  show Scalar.select (Ideal.cmp .une (X i) (X i)) (Ideal.ofBits .f32 0x00000000#32) (X i) = Scalar.select (Ideal.cmp .une (X i) (X i)) 0 (X i)
  rw [Ideal.ofBits_zero_f32]

theorem filledY_at (Y : Arr) (i : S4096x1024.Idx) : val_main_v3 (F := Ideal) Y i = fill (Y i) := by
  rw [val_main_v3_apply, val_main_v1_apply, val_main_call1_v1_apply, val_main_call1_v0_apply, val_main_cst_0_apply]
  show Scalar.select (Ideal.cmp .une (Y i) (Y i)) (Ideal.ofBits .f32 0x00000000#32) (Y i) = Scalar.select (Ideal.cmp .une (Y i) (Y i)) 0 (Y i)
  rw [Ideal.ofBits_zero_f32]

theorem sqX_at (X : Arr) (i : S4096x1024.Idx) : val_main_v4 (F := Ideal) X i = fill (X i) * fill (X i) := by
  rw [val_main_v4_apply, filledX_at]; rfl

theorem sqY_at (Y : Arr) (i : S4096x1024.Idx) : val_main_v5 (F := Ideal) Y i = fill (Y i) * fill (Y i) := by
  rw [val_main_v5_apply, filledY_at]; rfl

theorem missY_at (Y : Arr) (i : S4096x1024.Idx) : val_main_v19 (F := Ideal) Y i = miss (Y i) := by
  rw [val_main_v19_apply, val_main_v1_apply]; rfl

theorem missX_at (X : Arr) (i : S4096x1024.Idx) : val_main_v23 (F := Ideal) X i = miss (X i) := by
  rw [val_main_v23_apply, val_main_v0_apply]; rfl

theorem presX_at (X : Arr) (i : S4096x1024.Idx) : val_main_v30 (F := Ideal) X i = 1 - miss (X i) := by
  rw [val_main_v30_apply, val_main_v29_apply, val_main_cst_5_apply, val_main_v28_apply, val_main_v0_apply]
  show Ideal.ofBits .f32 0x3F800000#32 - miss (X i) = _
  rw [one_f32]

theorem presY_at (Y : Arr) (i : S4096x1024.Idx) : val_main_v33 (F := Ideal) Y i = 1 - miss (Y i) := by
  rw [val_main_v33_apply, val_main_v32_apply, val_main_cst_6_apply, val_main_v31_apply, val_main_v1_apply]
  show Ideal.ofBits .f32 0x3F800000#32 - miss (Y i) = _
  rw [one_f32]

/-! ## Where each sum reads its operands -/

theorem lidx_eq (a b : Fin 4096) (k : Fin 1024) : lidx_main_v7 (ix2 a b) k = ix2 a k :=
  funext fun d => match d with | ⟨0, _⟩ => rfl | ⟨1, _⟩ => rfl
theorem tr_ridx_eq (a b : Fin 4096) (k : Fin 1024) : idx_main_v6 (ridx_main_v7 (ix2 a b) k) = ix2 b k :=
  funext fun d => match d with | ⟨0, _⟩ => rfl | ⟨1, _⟩ => rfl

/-- ⟨f x, f y⟩ -/
theorem cross_at (X Y : Arr) (a b : Fin 4096) :
    val_main_v7 (F := Ideal) X Y (ix2 a b) = ∑ k : Fin 1024, fill (X (ix2 a k)) * fill (Y (ix2 b k)) := by
  rw [val_main_v7_apply]
  refine Finset.sum_congr rfl fun k _ => ?_
  rw [val_main_v6_apply, filledX_at, filledY_at, lidx_eq, tr_ridx_eq]

/-- Σ f(x)² μ(y) -/
theorem xmy_at (X Y : Arr) (a b : Fin 4096) :
    val_main_v21 (F := Ideal) X Y (ix2 a b) = ∑ k : Fin 1024, fill (X (ix2 a k)) * fill (X (ix2 a k)) * miss (Y (ix2 b k)) := by
  rw [val_main_v21_apply]
  refine Finset.sum_congr rfl fun k _ => ?_
  rw [val_main_v20_apply, sqX_at, missY_at]
  exact congrArg₂ (fun u v => fill (X u) * fill (X u) * miss (Y v)) (lidx_eq a b k) (tr_ridx_eq a b k)

/-- Σ μ(x) f(y)² -/
theorem mxy_at (X Y : Arr) (a b : Fin 4096) :
    val_main_v25 (F := Ideal) X Y (ix2 a b) = ∑ k : Fin 1024, miss (X (ix2 a k)) * (fill (Y (ix2 b k)) * fill (Y (ix2 b k))) := by
  rw [val_main_v25_apply]
  refine Finset.sum_congr rfl fun k _ => ?_
  rw [val_main_v24_apply, missX_at, sqY_at]
  exact congrArg₂ (fun u v => miss (X u) * (fill (Y v) * fill (Y v))) (lidx_eq a b k) (tr_ridx_eq a b k)

/-- the count of coordinates present in both rows -/
theorem count_at (X Y : Arr) (a b : Fin 4096) :
    val_main_v35 (F := Ideal) X Y (ix2 a b) = ∑ k : Fin 1024, (1 - miss (X (ix2 a k))) * (1 - miss (Y (ix2 b k))) := by
  rw [val_main_v35_apply]
  refine Finset.sum_congr rfl fun k _ => ?_
  rw [val_main_v34_apply, presX_at, presY_at]
  exact congrArg₂ (fun u v => (1 - miss (X u)) * (1 - miss (Y v))) (lidx_eq a b k) (tr_ridx_eq a b k)

/-- ‖f x‖², copied along row a -/
theorem xx_at (X : Arr) (a b : Fin 4096) :
    val_main_v12 (F := Ideal) X (ix2 a b) = ∑ k : Fin 1024, fill (X (ix2 a k)) * fill (X (ix2 a k)) := by
  rw [val_main_v12_apply, val_main_v11_apply, val_main_v10_apply, val_main_cst_2_apply]
  show Ideal.ofBits .f32 0x00000000#32 + _ = _
  rw [Ideal.ofBits_zero_f32, zero_add]
  refine Finset.sum_congr rfl fun k _ => ?_
  rw [sqX_at]
  exact congrArg (fun u => fill (X u) * fill (X u)) (funext fun d => match d with | ⟨0, _⟩ => rfl | ⟨1, _⟩ => rfl)

/-- ‖f y‖², copied down column b -/
theorem yy_at (Y : Arr) (a b : Fin 4096) :
    val_main_v17 (F := Ideal) Y (ix2 a b) = ∑ k : Fin 1024, fill (Y (ix2 b k)) * fill (Y (ix2 b k)) := by
  rw [val_main_v17_apply, val_main_v16_apply, val_main_v15_apply, val_main_v14_apply, val_main_cst_3_apply]
  show Ideal.ofBits .f32 0x00000000#32 + _ = _
  rw [Ideal.ofBits_zero_f32, zero_add]
  refine Finset.sum_congr rfl fun k _ => ?_
  rw [sqY_at]
  exact congrArg (fun u => fill (Y u) * fill (Y u)) (funext fun d => match d with | ⟨0, _⟩ => rfl | ⟨1, _⟩ => rfl)

/-! ## The closing chain -/

/-- The reference's result is the array of row distances. -/
theorem result_eq (X Y : Arr) : val_main_v44 (F := Ideal) X Y = dist X Y := by
  funext ij
  obtain ⟨a, b, rfl⟩ : ∃ (a b : Fin 4096), ij = ix2 a b := ⟨ij 0, ij 1, eq_ix2 ij⟩
  rw [val_main_v44_apply, val_main_v43_apply, val_main_v42_apply, val_main_cst_10_apply, val_main_v41_apply,
    val_main_v40_apply, val_main_v39_apply, val_main_cst_9_apply, val_main_v38_apply, val_main_v37_apply,
    val_main_v36_apply, val_main_cst_7_apply, val_main_call3_v1_apply, val_main_call3_v0_apply, val_main_cst_8_apply,
    val_main_v27_apply, val_main_call2_v1_apply, val_main_call2_v0_apply, val_main_cst_4_apply, val_main_v26_apply,
    val_main_v22_apply, val_main_v18_apply, val_main_v13_apply, val_main_v9_apply, val_main_v8_apply, val_main_cst_1_apply,
    count_at, mxy_at, xmy_at, yy_at, xx_at, cross_at]
  show Ideal.sqrt (Ideal.div (Scalar.select (Ideal.cmp .oeq _ (Ideal.ofBits .f32 0x00000000#32)) (Ideal.ofBits .f32 0x7FC00000#32)
      (max (Ideal.ofBits .f32 0x00000000#32) _)) (max (Ideal.ofBits .f32 0x3F800000#32) _) * Ideal.ofBits .f32 0x44800000#32) = _
  rw [Ideal.ofBits_zero_f32, one_f32, max_comm (0 : EReal)]
  rfl

end Cert.ReferenceIdeal.Hand

end
-- ==== Proof.lean ====
/-
  The kernel computes, tile by tile, the distances between the rows of X and the rows of Y over the coordinates present
  in both (a coordinate is missing where the entry is unequal to itself), and the reference computes the same array whole:
  both are  sqrt ( max(‖f x‖² + ‖f y‖² − 2⟨f x, f y⟩ − Σ f(x)² μ(y) − Σ μ(x) f(y)², 0) / max(1, count) · 1024 )  entry by
  entry, with f the entry or zero where it is missing, μ the indicator of a missing entry and count = Σ (1 − μ x)(1 − μ y).

  On the extended reals the two programs differ only in spelling: the kernel's products go through sixteen-bit operands
  (a change of format is the identity), its comparison for "missing" is the ordered one where the reference's is the
  unordered one (one comparison there), its indicator is a widened bit read signed where the reference reads the bit
  unsigned, its one is the sixteen-bit word, its row sum of f(y)² is a row of ones times the transposed squares (1 · a = a)
  where the reference adds from zero (0 + a = a), and its clamp is max(d, 0) where the reference's is max(0, d).  The sums
  themselves are over the same 1024 coordinates in both, so no law of the extended reals beyond these is used and the
  precondition is never opened.

  The kernel's side: what one grid point stores at an entry of its block (Payload), that the 128 blocks are the blocks
  of one array (Cover).  The reference's side: its operations read at an entry, one after the other (RefValue, over the
  reference's run and its read-at-an-index lemmas).  The two meet in the array of row distances (Spec).
-/
import proofs.«156769_j5634997092779_1_alg».proof.Defs
import proofs.«156769_j5634997092779_1_alg».proof.Proof.Gen.Kernel
import proofs.«156769_j5634997092779_1_alg».proof.Proof.Gen.Kernel.Skeleton
import proofs.«156769_j5634997092779_1_alg».proof.Proof.Gen.Kernel.Launch
import proofs.«156769_j5634997092779_1_alg».proof.Proof.Gen.Kernel.Points
import proofs.«156769_j5634997092779_1_alg».proof.Proof.Gen.Kernel.Frame
import proofs.«156769_j5634997092779_1_alg».proof.Proof.Gen.KernelIdeal
import proofs.«156769_j5634997092779_1_alg».proof.Proof.Gen.KernelIdeal.Skeleton
import proofs.«156769_j5634997092779_1_alg».proof.Proof.Gen.KernelIdeal.Launch
import proofs.«156769_j5634997092779_1_alg».proof.Proof.Gen.KernelIdeal.Points
import proofs.«156769_j5634997092779_1_alg».proof.Proof.Gen.KernelIdeal.Frame
import proofs.«156769_j5634997092779_1_alg».proof.Proof.Gen.ReferenceIdeal
import proofs.«156769_j5634997092779_1_alg».proof.Proof.Gen.Pre_finite_inputs
import proofs.«156769_j5634997092779_1_alg».proof.Proof.Gen.KernelIdeal.Value
import proofs.«156769_j5634997092779_1_alg».proof.Proof.Cover
import proofs.«156769_j5634997092779_1_alg».proof.Proof.RefValue
import Idealize.ShloMosaic.Adequacy
import Idealize.ShloMosaic.Init

noncomputable section

namespace Cert.Proof

open Idealize.ShloMosaic Idealize.ShloMosaic.TcCoe Idealize.SL.Sem

/-- Both printed kernels run to the end and leave X and Y as they were. -/
theorem frame_k : Cert.frame_Kernel := fun m ρ _ => Cert.Kernel.Gen.frame m ρ
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Nothing was rewritten between the kernel and its idealization. -/
theorem preserves : Cert.preserves_Kernel_KernelIdeal := trivial

/-- From memories that agree on X and Y both programs end with the array of row distances of X and Y. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v44_eq, Cert.ReferenceIdeal.Hand.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
